-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048 : Shape := ⟨2, ![4, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x4096x2048 .f32) (main_arg1 : FVec F S4x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  main_v8
-- ==== Kernel.lean ====
abbrev S4x4096x2048 : Shape := ⟨3, ![4, 4096, 2048]⟩
abbrev S4x2048 : Shape := ⟨2, ![4, 2048]⟩
abbrev S1x4096x512 : Shape := ⟨3, ![1, 4096, 512]⟩
abbrev S4x512 : Shape := ⟨2, ![4, 512]⟩
abbrev S4096x512 : Shape := ⟨2, ![4096, 512]⟩
abbrev S1x512 : Shape := ⟨2, ![1, 512]⟩
abbrev S512 : Shape := ⟨1, ![512]⟩
abbrev S4x3x2048 : Shape := ⟨3, ![4, 3, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x4096x2048, .f32⟩
  | .hbm, ⟨3, _⟩ => ⟨S4x3x2048, .f32⟩
  | .local _ .vmem, ⟨0, _⟩ => ⟨S1x4096x512, .f32⟩
  | .local _ .vmem, ⟨1, _⟩ => ⟨S1x4096x512, .f32⟩
  | .local _ .vmem, ⟨2, _⟩ => ⟨S4x512, .f32⟩
  | .local _ .vmem, ⟨3, _⟩ => ⟨S4x512, .f32⟩
  | .local _ .vmem, ⟨4, _⟩ => ⟨S1x4096x512, .f32⟩
  | .local _ .vmem, ⟨5, _⟩ => ⟨S1x4096x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S4x512_S4x512_0_0 : ∀ a, (![0, 0] : Fin 2 → Nat) a + S4x512.size a ≤ S4x512.size a
  h_S4x512 : 0 < S4x512.numel
  iota_S4096x512_d0_w32 : S4096x512.Iotas .tc 32 [0]
  slices_S4x512_o0_0_S1x512 : S4x512.Slices ![0, 0] S1x512
  shapeCasts_S1x512_S512 : S1x512.ShapeCasts S512
  shapeCasts_S512_S1x512 : S512.ShapeCasts S1x512
  broadcasts_S1x512_S4096x512 : S1x512.Broadcasts S4096x512
  rotates_S4096x512_d0 : S4096x512.Rotates 0 none
  slices_S4x512_o1_0_S1x512 : S4x512.Slices ![1, 0] S1x512
  slices_S4x512_o2_0_S1x512 : S4x512.Slices ![2, 0] S1x512
  slices_S4x512_o3_0_S1x512 : S4x512.Slices ![3, 0] S1x512
  shapeCasts_S4096x512_S1x4096x512 : S4096x512.ShapeCasts S1x4096x512
  slices_S4x4096x2048_S4x3x2048_0_4093_0 : S4x4096x2048.Slices ![0, 4093, 0] S4x3x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x4096x2048.size a
  hwx0_0 : ∀ i : grid0.Coords, EltTy.bits .f32 = 32 ∨ (Rect.block (s := S4x4096x2048) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x2048.size a
  hwx0_1 : ∀ i : grid0.Coords, EltTy.bits .f32 = 32 ∨ (Rect.block (s := S4x2048) S4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x512.size a ≤ S4x4096x2048.size a
  hwx0_2 : ∀ i : grid0.Coords, EltTy.bits .f32 = 32 ∨ (Rect.block (s := S4x4096x2048) S1x4096x512.size (cc0_transform_2 i) (hinb0_2 i)).WholeWords (EltTy.packing .f32)

variable [Facts₀]

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x2048 : Shape := ⟨2, ![4, 2048]⟩
abbrev S_ : Shape := ⟨0, ![]⟩
abbrev S4x3x2048 : Shape := ⟨3, ![4, 3, 2048]⟩
abbrev S4x4099x2048 : Shape := ⟨3, ![4, 4099, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S_, .f32⟩
  | .hbm, ⟨3, _⟩ => ⟨S4x3x2048, .f32⟩
  | .hbm, ⟨4, _⟩ => ⟨S4x4099x2048, .f32⟩
  | .hbm, ⟨5, _⟩ => ⟨S1x2048, .f32⟩
  | .hbm, ⟨6, _⟩ => ⟨S2048, .f32⟩
  | .hbm, ⟨7, _⟩ => ⟨S1x1x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S1x2048, .f32⟩
  | .hbm, ⟨12, _⟩ => ⟨S2048, .f32⟩
  | .hbm, ⟨13, _⟩ => ⟨S1x1x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x3x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S4x3x2048 : S_.BroadcastsInDim S4x3x2048 (![] : Fin 0 → Fin S4x3x2048.rank)
  concatenates_S4x3x2048_S4x4096x2048_S4x4099x2048_d1 : Shape.Concatenates [S4x3x2048, S4x4096x2048] S4x4099x2048 1
  slices_S4x2048_S1x2048_0_0 : S4x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  slices_S4x4099x2048_S4x4096x2048_0_3_0 : S4x4099x2048.Slices ![0, 3, 0] S4x4096x2048
  bcast_S1x1x2048_S4x4096x2048_0_1_2 : S1x1x2048.BroadcastsInDim S4x4096x2048 (![0, 1, 2] : Fin 3 → Fin S4x4096x2048.rank)
  slices_S4x2048_S1x2048_1_0 : S4x2048.Slices ![1, 0] S1x2048
  slices_S4x4099x2048_S4x4096x2048_0_2_0 : S4x4099x2048.Slices ![0, 2, 0] S4x4096x2048
  slices_S4x2048_S1x2048_2_0 : S4x2048.Slices ![2, 0] S1x2048
  slices_S4x4099x2048_S4x4096x2048_0_1_0 : S4x4099x2048.Slices ![0, 1, 0] S4x4096x2048
  slices_S4x2048_S1x2048_3_0 : S4x2048.Slices ![3, 0] S1x2048
  slices_S4x4099x2048_S4x4096x2048_0_0_0 : S4x4099x2048.Slices ![0, 0, 0] S4x4096x2048
  bcast_S_S4x4096x2048 : S_.BroadcastsInDim S4x4096x2048 (![] : Fin 0 → Fin S4x4096x2048.rank)
  slices_S4x4099x2048_S4x3x2048_0_4096_0 : S4x4099x2048.Slices ![0, 4096, 0] S4x3x2048

variable [Facts₀]

class Facts : Prop extends Facts₀ where

variable [Facts]
-- ==== Proof.Spec.lean ====
/-
  What both programs compute, as functions of the two argument arrays over the extended reals.

  The input `x` has a batch axis (4), a time axis (4096) and a channel axis (2048); the taps `k` are four rows of 2048
  channel weights. The causal depthwise convolution adds, per batch entry, time step and channel, the four products of tap `j`
  of the channel with the input `j` steps earlier in time, where "earlier than the start" reads zero; the sum is added from
  tap 0 upwards, as both programs do. The first result is that sum times its logistic function; the second result is the
  last three time steps of the input.
-/
import Idealize.ShloMosaic.PureOps.Ideal
import Idealize.ShloMosaic.Lib.ValueIdx

noncomputable section

namespace Cert.CausalConv

open Idealize.ShloMosaic Idealize.ShloMosaic.ValueIdx

/-- The input's shape: batch, time, channel. -/
abbrev XS : Shape := ⟨3, ![4, 4096, 2048]⟩
/-- The taps' shape: tap, channel. -/
abbrev KS : Shape := ⟨2, ![4, 2048]⟩
/-- The second result's shape: batch, the last three time steps, channel. -/
abbrev LS : Shape := ⟨3, ![4, 3, 2048]⟩

/-- The zero both programs splat: the f32 word of all zero bits. It is never evaluated: both sides carry the same word. -/
abbrev zeroWord : Ideal .f32 := Ideal.ofBits .f32 0x00000000#32

/-- A sequence over the 4096 time steps read `j` steps before `t`, zero before the start of the sequence. -/
def delayedAt (f : Fin 4096 → Ideal .f32) (j : Nat) (t : Fin 4096) : Ideal .f32 :=
  if h : j ≤ t.val then f ⟨t.val - j, by omega⟩ else zeroWord

/-- The four-tap sum of one sequence `f` with the four weights `w` at time `t`, added from tap 0 upwards. -/
def tapSumAt (f : Fin 4096 → Ideal .f32) (w : Fin 4 → Ideal .f32) (t : Fin 4096) : Ideal .f32 :=
  w 0 * f t + w 1 * delayedAt f 1 t + w 2 * delayedAt f 2 t + w 3 * delayedAt f 3 t

/-- The input `j` time steps before `t` at a batch entry and a channel, zero before the start of the sequence. -/
def delayed (x : FVec Ideal XS .f32) (j : Nat) (b : Fin 4) (t : Fin 4096) (c : Fin 2048) : Ideal .f32 :=
  delayedAt (fun u => x (ix3 b u c)) j t

/-- No delay is the input itself. -/
theorem delayed_zero (x : FVec Ideal XS .f32) (b : Fin 4) (t : Fin 4096) (c : Fin 2048) :
    delayed x 0 b t c = x (ix3 b t c) := by
  unfold delayed delayedAt
  rw [dif_pos (Nat.zero_le _)]
  rfl

/-- The four-tap sum at a batch entry, a time step and a channel: the batch entry's and channel's sequence over time
    against the channel's four weights. -/
def tapSum (x : FVec Ideal XS .f32) (k : FVec Ideal KS .f32) (b : Fin 4) (t : Fin 4096) (c : Fin 2048) : Ideal .f32 :=
  tapSumAt (fun u => x (ix3 b u c)) (fun j => k (ix2 j c)) t

/-- A value times its logistic function, `s · 1 / (1 + e^(-s))`. -/
def swish (s : Ideal .f32) : Ideal .f32 := s * Ideal.logistic s

/-- The first result: the four-tap sum through `swish`, at every index. -/
def conv (x : FVec Ideal XS .f32) (k : FVec Ideal KS .f32) : FVec Ideal XS .f32 :=
  fun i => swish (tapSum x k (i 0) (i 1) (i 2))

/-- The second result: the input's time steps 4093, 4094 and 4095. -/
def lastSteps (x : FVec Ideal XS .f32) : FVec Ideal LS .f32 :=
  fun i => x (ix3 (i 0) ⟨4093 + (i 1).val, by have h : (i 1).val < 3 := (i 1).isLt; omega⟩ (i 2))

end Cert.CausalConv

end
-- ==== Proof.RefValue.lean ====
/-
  The reference program's two results are `conv` and `lastSteps` of its arguments.

  The reference pads the input with three zero time steps in front (a concatenation along the time axis), multiplies
  four slices of the padded stream, at offsets 3, 2, 1 and 0, by the broadcast rows of the taps, adds them from tap 0
  upwards, and passes the sum through `s · 1 / (1 + e^(-s))`. The padded stream at position `s` is zero for `s < 3`
  and the input at `s - 3` from there on, so the slice at offset `3 - j` is the input delayed by `j` steps. The padded
  stream's positions from 4096 on are the input's last three time steps.
-/
import proofs.«140177_j27247272525827_1_alg».proof.Proof.Gen.ReferenceIdeal.Read
import proofs.«140177_j27247272525827_1_alg».proof.Proof.Spec
import Idealize.ShloMosaic.Lib.Pipeline.Value
import Idealize.ShloMosaic.Lib.ValueIdx
import Idealize.ShloMosaic.Lib.IdealHost

noncomputable section

namespace Cert.ReferenceIdeal.RefValue

open Cert.ReferenceIdeal Cert.ReferenceIdeal.Gen Cert.ReferenceIdeal.Read Cert.CausalConv
open Idealize.ShloMosaic Idealize.ShloMosaic.ValueIdx

/-! ## The padded stream -/

/-- The padded stream before position 3 is the zero splat. -/
theorem padded_front (x0 : FVec Ideal XS .f32) (b : Fin 4) (s : Fin 4099) (c : Fin 2048) (hs : s.val < 3) :
    val_main_v1 (F := Ideal) x0 (ix3 b s c) = zeroWord := by
  unfold val_main_v1
  refine (concatenate_pair_apply_left (t := S4x4099x2048) (s₁ := S4x3x2048) (s₂ := S4x4096x2048) (1 : Fin 3) _ _
    concatenates_S4x3x2048_S4x4096x2048_S4x4099x2048_d1 (ix3 b s c) rfl (ix3 b ⟨s.val, hs⟩ c)
    (fun a => match a with | ⟨0, _⟩ => rfl | ⟨1, _⟩ => rfl | ⟨2, _⟩ => rfl)).trans ?_
  rw [val_main_v0_apply, val_main_cst_apply]
  rfl

/-- The padded stream from position 3 on is the input three steps back. -/
theorem padded_back (x0 : FVec Ideal XS .f32) (b : Fin 4) (s : Fin 4099) (c : Fin 2048) (hs : 3 ≤ s.val) :
    val_main_v1 (F := Ideal) x0 (ix3 b s c) = x0 (ix3 b ⟨s.val - 3, by have := s.isLt; omega⟩ c) := by
  unfold val_main_v1
  exact concatenate_pair_apply_right (t := S4x4099x2048) (s₁ := S4x3x2048) (s₂ := S4x4096x2048) (1 : Fin 3) _ _
    concatenates_S4x3x2048_S4x4096x2048_S4x4099x2048_d1 (ix3 b s c) rfl rfl (ix3 b ⟨s.val - 3, by have := s.isLt; omega⟩ c)
    (fun a => match a with
      | ⟨0, _⟩ => fun _ => rfl
      | ⟨1, _⟩ => fun h => absurd rfl h
      | ⟨2, _⟩ => fun _ => rfl)
    (by show s.val - 3 + 3 = s.val; omega)

/-- The padded stream at position `(3 - j) + t` is the input delayed by `j` steps at `t`. -/
theorem padded_delayed (x0 : FVec Ideal XS .f32) (j : Nat) (hj : j ≤ 3) (b : Fin 4) (t : Fin 4096) (c : Fin 2048) :
    val_main_v1 (F := Ideal) x0 (ix3 b ⟨(3 - j) + t.val, by have := t.isLt; omega⟩ c) = delayed x0 j b t c := by
  unfold delayed delayedAt
  by_cases h : j ≤ t.val
  · rw [dif_pos h, padded_back x0 b _ c (by show 3 ≤ (3 - j) + t.val; omega)]
    exact congrArg x0 (congrArg (fun u => ix3 b u c) (Fin.ext (by show (3 - j) + t.val - 3 = t.val - j; omega)))
  · rw [dif_neg h]
    exact padded_front x0 b _ c (by show (3 - j) + t.val < 3; omega)

/-! ## The four slices of the padded stream -/

theorem slice3 (x0 : FVec Ideal XS .f32) (b : Fin 4) (t : Fin 4096) (c : Fin 2048) :
    val_main_v5 (F := Ideal) x0 (ix3 b t c) = x0 (ix3 b t c) := by
  rw [val_main_v5_apply, ← delayed_zero x0 b t c, ← padded_delayed x0 0 (by omega) b t c]
  exact congrArg _ (funext fun a => match a with | ⟨0, _⟩ => rfl | ⟨1, _⟩ => rfl | ⟨2, _⟩ => rfl)

theorem slice2 (x0 : FVec Ideal XS .f32) (b : Fin 4) (t : Fin 4096) (c : Fin 2048) :
    val_main_v11 (F := Ideal) x0 (ix3 b t c) = delayed x0 1 b t c := by
  rw [val_main_v11_apply, ← padded_delayed x0 1 (by omega) b t c]
  exact congrArg _ (funext fun a => match a with | ⟨0, _⟩ => rfl | ⟨1, _⟩ => rfl | ⟨2, _⟩ => rfl)

theorem slice1 (x0 : FVec Ideal XS .f32) (b : Fin 4) (t : Fin 4096) (c : Fin 2048) :
    val_main_v18 (F := Ideal) x0 (ix3 b t c) = delayed x0 2 b t c := by
  rw [val_main_v18_apply, ← padded_delayed x0 2 (by omega) b t c]
  exact congrArg _ (funext fun a => match a with | ⟨0, _⟩ => rfl | ⟨1, _⟩ => rfl | ⟨2, _⟩ => rfl)

theorem slice0 (x0 : FVec Ideal XS .f32) (b : Fin 4) (t : Fin 4096) (c : Fin 2048) :
    val_main_v25 (F := Ideal) x0 (ix3 b t c) = delayed x0 3 b t c := by
  rw [val_main_v25_apply, ← padded_delayed x0 3 (by omega) b t c]
  exact congrArg _ (funext fun a => match a with | ⟨0, _⟩ => rfl | ⟨1, _⟩ => Fin.ext (by show t.val = (3 - 3) + t.val; omega) | ⟨2, _⟩ => rfl)

/-! ## The taps' rows broadcast over batch and time -/

theorem row0 (x1 : FVec Ideal KS .f32) (b : Fin 4) (t : Fin 4096) (c : Fin 2048) :
    val_main_v6 (F := Ideal) x1 (ix3 b t c) = x1 (ix2 (0 : Fin 4) c) := by
  rw [val_main_v6_apply, val_main_v4_apply, val_main_v3_apply, val_main_v2_apply]
  exact congrArg x1 (funext fun a => match a with
    | ⟨0, _⟩ => rfl
    | ⟨1, _⟩ => Fin.ext (Nat.mod_eq_of_lt c.isLt))

theorem row1 (x1 : FVec Ideal KS .f32) (b : Fin 4) (t : Fin 4096) (c : Fin 2048) :
    val_main_v12 (F := Ideal) x1 (ix3 b t c) = x1 (ix2 (1 : Fin 4) c) := by
  rw [val_main_v12_apply, val_main_v10_apply, val_main_v9_apply, val_main_v8_apply]
  exact congrArg x1 (funext fun a => match a with
    | ⟨0, _⟩ => rfl
    | ⟨1, _⟩ => Fin.ext (Nat.mod_eq_of_lt c.isLt))

theorem row2 (x1 : FVec Ideal KS .f32) (b : Fin 4) (t : Fin 4096) (c : Fin 2048) :
    val_main_v19 (F := Ideal) x1 (ix3 b t c) = x1 (ix2 (2 : Fin 4) c) := by
  rw [val_main_v19_apply, val_main_v17_apply, val_main_v16_apply, val_main_v15_apply]
  exact congrArg x1 (funext fun a => match a with
    | ⟨0, _⟩ => rfl
    | ⟨1, _⟩ => Fin.ext (Nat.mod_eq_of_lt c.isLt))

theorem row3 (x1 : FVec Ideal KS .f32) (b : Fin 4) (t : Fin 4096) (c : Fin 2048) :
    val_main_v26 (F := Ideal) x1 (ix3 b t c) = x1 (ix2 (3 : Fin 4) c) := by
  rw [val_main_v26_apply, val_main_v24_apply, val_main_v23_apply, val_main_v22_apply]
  exact congrArg x1 (funext fun a => match a with
    | ⟨0, _⟩ => rfl
    | ⟨1, _⟩ => Fin.ext (Nat.mod_eq_of_lt c.isLt))

/-! ## The sum and the two results -/

/-- The reference's sum of the four products is the four-tap sum. -/
theorem sum_eq (x0 : FVec Ideal XS .f32) (x1 : FVec Ideal KS .f32) (b : Fin 4) (t : Fin 4096) (c : Fin 2048) :
    val_main_v28 (F := Ideal) x0 x1 (ix3 b t c) = tapSum x0 x1 b t c := by
  rw [val_main_v28_apply, val_main_v21_apply, val_main_v14_apply, val_main_v7_apply, val_main_v13_apply,
    val_main_v20_apply, val_main_v27_apply, row0, row1, row2, row3, slice3, slice2, slice1, slice0]
  rfl

/-- The reference's first result is `conv`: the host's negate, exponential, add one and divide are the logistic
    function, the constant `1.0` being the real one. -/
theorem first_eq (x0 : FVec Ideal XS .f32) (x1 : FVec Ideal KS .f32) :
    val_main_v29 (F := Ideal) x0 x1 = conv x0 x1 := by
  funext i
  obtain ⟨b, t, c, rfl⟩ : ∃ (b : Fin 4) (t : Fin 4096) (c : Fin 2048), i = ix3 b t c := ⟨i 0, i 1, i 2, eq_ix3 i⟩
  rw [val_main_v29_apply, val_main_call0_v5_apply, val_main_call0_v4_apply, val_main_call0_cst_0_apply,
    val_main_call0_v3_apply, val_main_call0_v2_apply, val_main_call0_cst_apply, val_main_call0_v1_apply,
    val_main_call0_v0_apply, sum_eq]
  show tapSum x0 x1 b t c * Ideal.div (Ideal.ofBits .f32 0x3F800000#32)
    (Ideal.ofBits .f32 0x3F800000#32 + Ideal.exp (-(tapSum x0 x1 b t c))) = swish (tapSum x0 x1 b t c)
  rw [Ideal.ofBits_one_f32]
  rfl

/-- The reference's second result is `lastSteps`. -/
theorem second_eq (x0 : FVec Ideal XS .f32) : val_main_v30 (F := Ideal) x0 = lastSteps x0 := by
  funext i
  obtain ⟨b, r, c, rfl⟩ : ∃ (b : Fin 4) (r : Fin 3) (c : Fin 2048), i = ix3 b r c := ⟨i 0, i 1, i 2, eq_ix3 i⟩
  have e : idx_main_v30 (ix3 b r c) = ix3 b (⟨4096 + r.val, by have := r.isLt; omega⟩ : Fin 4099) c :=
    funext fun a => match a with | ⟨0, _⟩ => rfl | ⟨1, _⟩ => rfl | ⟨2, _⟩ => rfl
  rw [val_main_v30_apply, e]
  refine (padded_back x0 b ⟨4096 + r.val, by have := r.isLt; omega⟩ c (by show 3 ≤ 4096 + r.val; omega)).trans ?_
  exact congrArg x0 (congrArg (fun u => ix3 b u c) (Fin.ext (by show 4096 + r.val - 3 = 4093 + r.val; omega)))

end Cert.ReferenceIdeal.RefValue

end
-- ==== Proof.Body.lean ====
/-
  The kernel body's arithmetic at one entry of its block.

  The body holds one batch entry's block of the input, all 4096 time steps of 512 channels, and the four tap rows of
  those channels. It multiplies the block by tap row 0, and for `j = 1, 2, 3` adds tap row `j` times the block rotated
  by `j` steps along time with the first `j` time steps, where the rotation wraps the end of the sequence around, replaced
  by zero: the rotated block at time `t ≥ j` is the block at `t - j`, so the masked rotation is the block's column delayed
  by `j` steps. The sum goes through `s · logistic s`.
-/
import proofs.«140177_j27247272525827_1_alg».proof.Proof.Gen.KernelIdeal.Skeleton
import proofs.«140177_j27247272525827_1_alg».proof.Proof.Spec
import Idealize.ShloMosaic.Lib.Pipeline.Value
import Idealize.ShloMosaic.Lib.ValueIdx
import Idealize.ShloMosaic.Lib.KernelVsHost
import Idealize.ShloMosaic.Lib.StableHlo.Predicate

noncomputable section

namespace Cert.KernelIdeal.Body

open Cert.KernelIdeal Cert.KernelIdeal.Gen Cert.CausalConv
open Idealize.ShloMosaic Idealize.ShloMosaic.ValueIdx

/-- The logistic function of a vector, at an index, is the logistic function of the entry. -/
theorem logistic_apply (x : FVec Ideal S4096x512 .f32) (i : S4096x512.Idx) : logistic x i = Ideal.logistic (x i) := rfl

/-- The block with its unit batch axis dropped, at time `u` and channel `c`, is the block at `(0, u, c)`. -/
theorem dropBatch_apply (v0 : Vec Ideal S1x4096x512 .f32) (u : Fin 4096) (c : Fin 512) :
    shapeCast S4096x512 v0 shapeCasts_S1x4096x512_S4096x512 (ix2 u c) = v0 (ix3 (0 : Fin 1) u c) :=
  shapeCast_apply v0 shapeCasts_S1x4096x512_S4096x512 (ix2 u c) (ix3 (0 : Fin 1) u c)
    (by rw [Shape.rowMajor_val_three, Shape.rowMajor_val_two]
        show (0 * 4096 + u.val) * 512 + c.val = u.val * 512 + c.val
        omega)

/-- Tap row `o`, cut out of the four rows, flattened, laid as one row and broadcast down the time axis, reads the tap
    of row `o` at the channel. -/
theorem tapRow_apply (v2 : Vec Ideal S4x512 .f32) (o : Nat) (ho : o < 4) (h : S4x512.Slices ![o, 0] S1x512)
    (t : Fin 4096) (c : Fin 512) :
    broadcastTo S4096x512 (shapeCast S1x512 (shapeCast S512 (extractStridedSlice S1x512 ![o, 0] v2 h) shapeCasts_S1x512_S512)
      shapeCasts_S512_S1x512) broadcasts_S1x512_S4096x512 (ix2 t c) = v2 (ix2 (⟨o, ho⟩ : Fin 4) c) := by
  rw [shapeCast_shapeCast]
  refine (broadcastTo_apply _ broadcasts_S1x512_S4096x512 (ix2 t c) (ix2 (0 : Fin 1) c)
    (fun a => match a with
      | ⟨0, _⟩ => by show 0 = if (1 : Nat) = 1 then 0 else _; rw [if_pos rfl]
      | ⟨1, _⟩ => by show c.val = if (512 : Nat) = 1 then 0 else c.val; rw [if_neg (by decide)])).trans ?_
  exact extractStridedSlice_apply ![o, 0] v2 h (ix2 (0 : Fin 1) c) (ix2 (⟨o, ho⟩ : Fin 4) c)
    (fun a => match a with
      | ⟨0, _⟩ => by show o = o + 0; omega
      | ⟨1, _⟩ => by show c.val = 0 + c.val; omega)

/-- The rotation by `j` steps along time, from time `j` on, reads the operand `j` steps earlier. -/
theorem rotated_apply (v1 : FVec Ideal S4096x512 .f32) (sb : BitVec 32) (j : Nat) (hsb : sb.toNat = j) (hj : j < 4096)
    (t : Fin 4096) (c : Fin 512) (hjt : j ≤ t.val) :
    dynamicRotate 0 sb none v1 rotates_S4096x512_d0 (ix2 t c) = v1 (ix2 (⟨t.val - j, by omega⟩ : Fin 4096) c) :=
  dynamicRotate_apply (0 : Fin 2) sb v1 rotates_S4096x512_d0 (ix2 t c) (ix2 (⟨t.val - j, by omega⟩ : Fin 4096) c)
    (fun b => match b with
      | ⟨0, _⟩ => by
          show t.val - j = if (0 : Fin 2) = 0 then (t.val + 4096 - sb.toNat % 4096) % 4096 else t.val
          rw [if_pos rfl, hsb]
          have := t.isLt
          omega
      | ⟨1, _⟩ => by
          show c.val = if (1 : Fin 2) = 0 then _ else c.val
          rw [if_neg (by decide)])

/-- The mask "time step at least `j`" at time `t`: the time step's word compared, signed, with the word of `j`. -/
theorem mask_apply (sb : BitVec 32) (j : Nat) (hsb : sb.toNat = j) (hj : j < 4096) (t : Fin 4096) (c : Fin 512) :
    cmpi .sge (iota .tc S4096x512 32 [0] iota_S4096x512_d0_w32) (broadcast S4096x512 sb) (ix2 t c)
      = if j ≤ t.val then 1#1 else 0#1 := by
  show IntOp.cmpi .sge (iota .tc S4096x512 32 [0] iota_S4096x512_d0_w32 (ix2 t c)) sb = _
  rw [iota_single_apply]
  have ht : (BitVec.ofNat 32 t.val).toNat = t.val := by
    rw [BitVec.toNat_ofNat]; have := t.isLt; omega
  have ha : (BitVec.ofNat 32 t.val).toNat < 2 ^ 31 := by rw [ht]; have := t.isLt; omega
  have hb : sb.toNat < 2 ^ 31 := by rw [hsb]; omega
  by_cases h : j ≤ t.val
  · rw [if_pos h]
    exact (StableHlo.Predicate.sge_iff_toNat ha hb).mpr (by rw [hsb, ht]; exact h)
  · rw [if_neg h]
    exact eq_zero_of_ne_one fun h1 => h (by have := (StableHlo.Predicate.sge_iff_toNat ha hb).mp h1; rw [hsb, ht] at this; exact this)

/-- The rotated block with its first `j` time steps zeroed is the block's column delayed by `j` steps. -/
theorem shifted_apply (v1 : FVec Ideal S4096x512 .f32) (sb : BitVec 32) (j : Nat) (hsb : sb.toNat = j) (hj : j < 4096)
    (t : Fin 4096) (c : Fin 512) :
    select (cmpi .sge (iota .tc S4096x512 32 [0] iota_S4096x512_d0_w32) (broadcast S4096x512 sb))
        (dynamicRotate 0 sb none v1 rotates_S4096x512_d0)
        (broadcast S4096x512 (Scalar.ofBits (F := Ideal) .f32 0x00000000#32)) (ix2 t c)
      = delayedAt (fun u => v1 (ix2 u c)) j t := by
  rw [select_apply, mask_apply sb j hsb hj t c]
  unfold delayedAt
  by_cases h : j ≤ t.val
  · rw [if_pos h, dif_pos h, select_one]
    exact rotated_apply v1 sb j hsb hj t c h
  · rw [if_neg h, dif_neg h, select_zero]
    rfl

/-- THE BODY'S RESULT at time `t` and channel `c` of its block: the four-tap sum of the block's column at `c` with
    the four taps of `c`, through `s · logistic s`. -/
theorem result_apply (v0 : Vec Ideal S1x4096x512 .f32) (v2 : Vec Ideal S4x512 .f32) (t : Fin 4096) (c : Fin 512) :
    k0_pay2 (F := Ideal) v0 v2 (ix2 t c)
      = swish (tapSumAt (fun u => v0 (ix3 (0 : Fin 1) u c)) (fun j => v2 (ix2 j c)) t) := by
  have e0 := tapRow_apply v2 0 (by omega) slices_S4x512_o0_0_S1x512 t c
  have e1 := tapRow_apply v2 1 (by omega) slices_S4x512_o1_0_S1x512 t c
  have e2 := tapRow_apply v2 2 (by omega) slices_S4x512_o2_0_S1x512 t c
  have e3 := tapRow_apply v2 3 (by omega) slices_S4x512_o3_0_S1x512 t c
  have hx := dropBatch_apply v0 t c
  have hcol : (fun u : Fin 4096 => shapeCast S4096x512 v0 shapeCasts_S1x4096x512_S4096x512 (ix2 u c))
      = fun u => v0 (ix3 (0 : Fin 1) u c) := funext fun u => dropBatch_apply v0 u c
  have d1 := shifted_apply (shapeCast S4096x512 v0 shapeCasts_S1x4096x512_S4096x512) 1#32 1 rfl (by omega) t c
  have d2 := shifted_apply (shapeCast S4096x512 v0 shapeCasts_S1x4096x512_S4096x512) 2#32 2 rfl (by omega) t c
  have d3 := shifted_apply (shapeCast S4096x512 v0 shapeCasts_S1x4096x512_S4096x512) 3#32 3 rfl (by omega) t c
  rw [hcol] at d1 d2 d3
  unfold k0_pay2
  simp only [mulf_apply, addf_apply, logistic_apply]
  rw [e0, e1, e2, e3, hx, d1, d2, d3]
  rfl

end Cert.KernelIdeal.Body

end
-- ==== Proof.Whole.lean ====
/-
  What the kernel program leaves in its two results.

  The grid has a point per batch entry and per tile of 512 channels. At a point the input window holds the batch entry's
  time steps over the tile's channels, the tap window the four tap rows over the same channels, and the output window is
  written back to the same place as the input's. Inside a block, time is the whole time axis, so a delay along time stays
  inside the block: the body's result at an entry of the block is `conv` of the two argument arrays at the array index
  under that entry. The blocks tile the output array, so after the run the first result is `conv` of the arguments
  everywhere. The line after the kernel call cuts time steps 4093 to 4095 out of the input, which the call leaves
  unchanged: the second result is `lastSteps`.
-/
import proofs.«140177_j27247272525827_1_alg».proof.Proof.Gen.KernelIdeal.Frame
import proofs.«140177_j27247272525827_1_alg».proof.Proof.Body
import proofs.«140177_j27247272525827_1_alg».proof.Proof.Spec
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.CausalConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One entry of a block -/

/-- Channel `c` of channel tile `q` is a channel of the array. -/
theorem chan_lt (q : Fin 4) (c : Fin 512) : q.val * 512 + c.val < 2048 := by omega
/-- Channel `c` of channel tile `q`, as a channel of the array. -/
abbrev chan (q : Fin 4) (c : Fin 512) : Fin 2048 := ⟨q.val * 512 + c.val, chan_lt q c⟩

/-- The body's result with the unit batch axis put back, at an entry of the block, is `conv` of two arrays at an array
    index — for a block `v0` that is batch entry `b`, channel tile `q` of the array `x`, taps `v2` that are channel tile
    `q` of the array `k`, and the array index under the entry. -/
theorem entry_eq (x : FVec Ideal XS .f32) (k : FVec Ideal KS .f32) (v0 : Vec Ideal S1x4096x512 .f32) (v2 : Vec Ideal S4x512 .f32)
    (b q : Fin 4)
    (h0 : ∀ (u : Fin 4096) (c : Fin 512), v0 (ix3 (0 : Fin 1) u c) = x (ix3 b u (chan q c)))
    (h2 : ∀ (j : Fin 4) (c : Fin 512), v2 (ix2 j c) = k (ix2 j (chan q c)))
    (y : S1x4096x512.Idx) (i : XS.Idx) (hi0 : (i 0).val = b.val) (hi1 : (i 1).val = (y 1).val)
    (hi2 : (i 2).val = q.val * 512 + (y 2).val) :
    k0_pay1 (F := Ideal) (k0_pay2 v0 v2) y = conv x k i := by
  obtain ⟨z, t, c, rfl⟩ : ∃ (z : Fin 1) (t : Fin 4096) (c : Fin 512), y = ix3 z t c := ⟨y 0, y 1, y 2, eq_ix3 y⟩
  have hi : i = ix3 b t (chan q c) :=
    funext fun a => match a with
      | ⟨0, _⟩ => Fin.ext hi0
      | ⟨1, _⟩ => Fin.ext hi1
      | ⟨2, _⟩ => Fin.ext hi2
  subst hi
  unfold k0_pay1
  refine (shapeCast_apply _ shapeCasts_S4096x512_S1x4096x512 (ix3 z t c) (ix2 t c)
    (by rw [Shape.rowMajor_val_three, Shape.rowMajor_val_two]
        have hz : z.val = 0 := by have := z.isLt; omega
        show t.val * 512 + c.val = (z.val * 4096 + t.val) * 512 + c.val
        rw [hz]; omega)).trans ?_
  rw [Body.result_apply v0 v2 t c]
  show _ = swish (tapSumAt (fun u => x (ix3 b u (chan q c)))
    (fun j => k (ix2 j (chan q c))) t)
  rw [show (fun u : Fin 4096 => v0 (ix3 (0 : Fin 1) u c)) = fun u => x (ix3 b u (chan q c))
        from funext fun u => h0 u c,
      show (fun j : Fin 4 => v2 (ix2 j c)) = fun j => k (ix2 j (chan q c))
        from funext fun j => h2 j c]

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The three index maps, decided over the 16 grid points: the input's block index is the output's; the taps' block
    index is row block 0 and the output's channel tile; the output's block index is a batch entry, time block 0 and a
    channel tile. -/
theorem idx_facts : ∀ t : Fin cfg0.N,
    win0_0.index t (0 : Fin 3) = win0_2.index t (0 : Fin 3)
    ∧ win0_0.index t (1 : Fin 3) = 0
    ∧ win0_0.index t (2 : Fin 3) = win0_2.index t (2 : Fin 3)
    ∧ win0_1.index t (0 : Fin 2) = 0
    ∧ win0_1.index t (1 : Fin 2) = win0_2.index t (2 : Fin 3)
    ∧ win0_2.index t (0 : Fin 3) < 4
    ∧ win0_2.index t (1 : Fin 3) = 0
    ∧ win0_2.index t (2 : Fin 3) < 4 :=
  (by decide +kernel : ∀ t : Fin grid0.N, _)

/-- Every batch entry and channel tile is some grid point's. -/
theorem idx_onto : ∀ (b q : Fin 4), ∃ t : Fin cfg0.N, win0_2.index t = ![b.val, 0, q.val] :=
  (by decide +kernel : ∀ (b q : Fin 4), ∃ t : Fin grid0.N, win0_2.index t = ![b.val, 0, q.val])

/-! ## What a grid point writes back -/

/-- What point `t` writes back is block `t` of `conv` of the argument arrays. -/
theorem flushed_eq (c : Dev nD) (t : Fin cfg0.N) :
    (dats m 0 c).flushed 2 t
      = ((cfg0.win 2).blk t).view.read (Elt Ideal) (conv (V m c main_arg0) (V m c main_arg1)) := by
  show (cfg0.win 2).cut (grid0.coords t) ((dats m 0 c).after 2 t) = _
  rw [after0_2]
  unfold out0_2
  rw [View.canon_unit_zero hz3]
  simp only [View.ld_unit_zero (S := S1x4096x512) hz3, View.ld_unit_zero (S := S4x512) hz2]
  obtain ⟨e00, e01, e02, e10, e11, l0, z1, l2⟩ := idx_facts t
  funext y
  show k0_pay1 (F := Ideal) (k0_pay2 (iblk m c 0 t) (iblk m c 1 t)) y
    = conv (V m c main_arg0) (V m c main_arg1) (((cfg0.win 2).blk t).view.emb y)
  refine entry_eq (V m c main_arg0) (V m c main_arg1) (iblk m c 0 t) (iblk m c 1 t)
    ⟨win0_2.index t (0 : Fin 3), l0⟩ ⟨win0_2.index t (2 : Fin 3), l2⟩ ?_ ?_ y _ ?_ ?_ ?_
  · intro u ch
    show V m c main_arg0 (((cfg0.win 0).blk t).view.emb (ix3 (0 : Fin 1) u ch)) = _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 4096 + 1 * u.val = u.val; omega
    | ⟨2, _⟩ => show win0_0.index t (2 : Fin 3) * 512 + 1 * ch.val = win0_2.index t (2 : Fin 3) * 512 + ch.val; omega
  · intro j ch
    show V m c main_arg1 (((cfg0.win 1).blk t).view.emb (ix2 j ch)) = _
    refine congrArg (V m c main_arg1) (funext fun a => Fin.ext ?_)
    match a with
    | ⟨0, _⟩ => show win0_1.index t (0 : Fin 2) * 4 + 1 * j.val = j.val; omega
    | ⟨1, _⟩ => show win0_1.index t (1 : Fin 2) * 512 + 1 * ch.val = win0_2.index t (2 : Fin 3) * 512 + ch.val; omega
  · show win0_2.index t (0 : Fin 3) * 1 + 1 * (y 0).val = win0_2.index t (0 : Fin 3)
    have : (y 0).val < 1 := (y 0).isLt
    omega
  · show win0_2.index t (1 : Fin 3) * 4096 + 1 * (y 1).val = (y 1).val
    omega
  · show win0_2.index t (2 : Fin 3) * 512 + 1 * (y 2).val = win0_2.index t (2 : Fin 3) * 512 + (y 2).val
    omega

/-! ## The blocks tile the array -/

/-- An index of the array is in point `t`'s block iff each coordinate is in the block's range on its axis. -/
theorem mem_blk (t : Fin cfg0.N) (i : S4x4096x2048.Idx) :
    i ∈ ((cfg0.win 2).blk t).view.set ↔ ∀ a : Fin 3, win0_2.index t a * S1x4096x512.size a ≤ (i a).val
      ∧ (i a).val < win0_2.index t a * S1x4096x512.size a + S1x4096x512.size a := by
  show i ∈ ((View.whole main_v0).slice (win0_2.rect t)).set ↔ _
  rw [View.set_slice_whole, Rect.mem_set_unit]
  exact Iff.rfl

/-- Every index of the output array is in the block of the point of its batch entry and its channel tile. -/
theorem covered (i : S4x4096x2048.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 2048 := (i 2).isLt
  obtain ⟨t, ht⟩ := idx_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 512 ≤ (i 2).val ∧ (i 2).val < win0_2.index t (2 : Fin 3) * 512 + 512; omega

/-- THE FIRST RESULT after the run is `conv` of the argument arrays as launched. -/
theorem first_final (c : Dev nD) :
    (dats m 0 c).arrAt 2 cfg0.N = conv (m ((c : Thread nD τ).loc main_arg0)) (m ((c : Thread nD τ).loc main_arg1)) :=
  (dats m 0 c).arrAt_eq_of_cover 2 (conv (V m c main_arg0) (V m c main_arg1)) (fun t _ => flushed_eq m c t) covered

/-! ## The line after the kernel call -/

/-- THE SECOND RESULT: the slice the line after the call writes is `lastSteps` of the input as launched, the call
    leaving the input array as it found it. -/
theorem second_final (c : Dev nD) :
    Pipeline.afterTail₀ cfgs (dats m) 0 (V0 m) [hostOps1] c main_v1 = lastSteps (m ((c : Thread nD τ).loc main_arg0)) := by
  unfold Pipeline.afterTail₀
  show StableHlo.after hostOps1 _ (Proc.devRef .tc main_v1) = _
  after_results
  have harr : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  refine (congrArg (fun v => extractStridedSlice S4x3x2048 ![0, 4093, 0] v slices_S4x4096x2048_S4x3x2048_0_4093_0) harr).trans ?_
  funext i
  obtain ⟨b, r, ch, rfl⟩ : ∃ (b : Fin 4) (r : Fin 3) (ch : Fin 2048), i = ix3 b r ch := ⟨i 0, i 1, i 2, eq_ix3 i⟩
  exact extractStridedSlice_apply ![0, 4093, 0] (m ((c : Thread nD τ).loc main_arg0)) slices_S4x4096x2048_S4x3x2048_0_4093_0
    (ix3 b r ch) (ix3 b (⟨4093 + r.val, by have := r.isLt; omega⟩ : Fin 4096) ch)
    (fun a => match a with
      | ⟨0, _⟩ => by show b.val = 0 + b.val; omega
      | ⟨1, _⟩ => by show 4093 + r.val = 4093 + r.val; rfl
      | ⟨2, _⟩ => by show ch.val = 0 + ch.val; omega)

/-! ## The run, read -/

/-- The line after the call writes a buffer that is no window's array. -/
theorem v1_rest : main_v1 ∈ Pipeline.restRefs sig cfg0.spec :=
  Pipeline.mem_restRefs_of main_v1 rfl (by decide)

/-- THE RUN: every weakly fair execution of the kernel program terminates with the first result at `conv` and the second
    at `lastSteps` of the arguments as launched, the arguments unchanged. -/
theorem run : θ_run defs (onTc (τ := τ) (main (F := Ideal))) ⟨m, fun _ => 0, ρ⟩ fun r => ∀ c : Dev nD,
      r.2.mem ((c : Thread nD τ).loc main_v0) = conv (m ((c : Thread nD τ).loc main_arg0)) (m ((c : Thread nD τ).loc main_arg1))
      ∧ r.2.mem ((c : Thread nD τ).loc main_v1) = lastSteps (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (first_final m c),
      ((h c).2 main_v1 v1_rest).trans (second_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.lean ====
/-
  The certificate of the causal depthwise short convolution with `s · logistic s` on top.

  Both programs compute, at a batch entry, a time step and a channel, the sum over the four taps of the channel's tap
  weight times the input that many time steps earlier, zero before the start of the sequence, and pass it through
  `s · logistic s`; both also return the input's last three time steps (Proof/Spec.lean: `conv`, `lastSteps`).
  The kernel reaches the earlier time steps by rotating its block along time and zeroing the rows the rotation wrapped
  around (Proof/Body.lean), on a grid of batch entries and channel tiles whose blocks tile the output (Proof/Whole.lean).
  The reference pads the input with three zero time steps in front and slices the padded stream at four offsets, and
  writes the logistic function as `1 / (1 + e^(-s))` (Proof/RefValue.lean). The two sums add the same four products in
  the same order, so no law of arithmetic is needed and the inputs' finiteness is not used.
  The idealization rewrote nothing in the kernel, so `preserves` is trivial. The three frames are the generated ones;
  the reference's is its run with the results dropped.
-/
import proofs.«140177_j27247272525827_1_alg».proof.Defs
import proofs.«140177_j27247272525827_1_alg».proof.Proof.Gen.Kernel
import proofs.«140177_j27247272525827_1_alg».proof.Proof.Gen.Kernel.Skeleton
import proofs.«140177_j27247272525827_1_alg».proof.Proof.Gen.Kernel.Launch
import proofs.«140177_j27247272525827_1_alg».proof.Proof.Gen.Kernel.Points
import proofs.«140177_j27247272525827_1_alg».proof.Proof.Gen.Kernel.Frame
import proofs.«140177_j27247272525827_1_alg».proof.Proof.Gen.KernelIdeal
import proofs.«140177_j27247272525827_1_alg».proof.Proof.Gen.KernelIdeal.Skeleton
import proofs.«140177_j27247272525827_1_alg».proof.Proof.Gen.KernelIdeal.Launch
import proofs.«140177_j27247272525827_1_alg».proof.Proof.Gen.KernelIdeal.Points
import proofs.«140177_j27247272525827_1_alg».proof.Proof.Gen.KernelIdeal.Frame
import proofs.«140177_j27247272525827_1_alg».proof.Proof.Gen.ReferenceIdeal
import proofs.«140177_j27247272525827_1_alg».proof.Proof.Gen.ReferenceIdeal.Run
import proofs.«140177_j27247272525827_1_alg».proof.Proof.Gen.ReferenceIdeal.Read
import proofs.«140177_j27247272525827_1_alg».proof.Proof.Gen.Pre_finite_inputs
import proofs.«140177_j27247272525827_1_alg».proof.Proof.Spec
import proofs.«140177_j27247272525827_1_alg».proof.Proof.RefValue
import proofs.«140177_j27247272525827_1_alg».proof.Proof.Whole
import Idealize.ShloMosaic.Adequacy
import Idealize.ShloMosaic.Init

noncomputable section

namespace Cert.Proof

open Idealize.ShloMosaic Idealize.ShloMosaic.TcCoe Idealize.SL.Sem Cert.CausalConv

/-- The kernel runs and keeps its arguments, at the word level. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel ends with `conv` and `lastSteps` of its arguments
    (Proof/Whole.lean) and the reference with `conv` and `lastSteps` of its own (Proof/RefValue.lean), which are the same
    arrays. -/
theorem algebraic : Cert.algebraic_KernelIdeal_ReferenceIdeal := by
  intro m ρ m' ρ' _ hagree
  refine ⟨fun c => conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => lastSteps (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v29_eq, Cert.ReferenceIdeal.RefValue.first_eq, (hagree c).1, (hagree c).2]
  · rw [(h c).2.1, Cert.ReferenceIdeal.Read.val_main_v30_eq, Cert.ReferenceIdeal.RefValue.second_eq, (hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
